-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S1x1 : Shape := ⟨2, ![1, 1]⟩
abbrev S256x4096 : Shape := ⟨2, ![256, 4096]⟩
abbrev S1x4096 : Shape := ⟨2, ![1, 4096]⟩
abbrev S4096 : Shape := ⟨1, ![4096]⟩
abbrev S1 : Shape := ⟨1, ![1]⟩
abbrev S_ : Shape := ⟨0, ![]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x1, .f32⟩
  | .hbm, ⟨3, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v29 : BitVec 1 := Scalar.cmpi .eq arg0 c63_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  reduces_S256x4096_S4096 : S256x4096.Reduces [0] S4096
  shapeCasts_S4096_S1x4096 : S4096.ShapeCasts S1x4096
  reduces_S1x4096_S1 : S1x4096.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩
abbrev S4096 : Shape := ⟨1, ![4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S16384x4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  reducesTo_S16384x4096_S4096_d0 : S16384x4096.ReducesTo [0] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Pieces.lean ====
/-
  What one run of the body leaves in the three accumulator rows and in the result's buffer, case by case, as the
  stored values of the blocks it read.

  At the first point each row is reset to zero and then updated, so it ends at the update of the zero row by the
  point's two input blocks. At every other point each row ends at the update, by the point's blocks, of the row the
  point before left. At the last point the result's buffer ends at the loss expression of the three rows just updated.
-/
import proofs.«112263_j7035156431183_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-! ## The first point: reset, then update -/

/-- The o·t row after the first point: the update of the zero row. -/
theorem dotRow_first (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : cond0_0 i) (hc1 : ¬cond0_1 i)
    (x0 x1 : Vec F S256x4096 .f32) :
    sout0_A_0 c i a1 h1 a2 h2 a3 h3 a4 h4 a5 h5 a6 h6 hc0 hc1 x0 x1 = k0_pay5 x0 x1 (k0_pay2 (F := F)) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x4096) hz, View.readCov_unit_zero (S := S1x4096) _ hz]
  simp only [View.readAt_eq_ld, h1.read_unread, h2.read_unread, h4.read_unread, h5.read_unread, h6.read_unread,
    View.ld_unit_zero (S := S256x4096) hz, View.ld_unit_zero (S := S1x4096) hz]

/-- The o·o row after the first point: the update of the zero row. -/
theorem sqRow0_first (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : cond0_0 i) (hc1 : ¬cond0_1 i)
    (x0 x1 : Vec F S256x4096 .f32) :
    sout0_A_1 c i a1 h1 a2 h2 a3 h3 a4 h4 a5 h5 a6 h6 hc0 hc1 x0 x1 = k0_pay6 x0 (k0_pay3 (F := F)) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x4096) hz, View.readCov_unit_zero (S := S1x4096) _ hz]
  simp only [View.readAt_eq_ld, h1.read_unread, h2.read_unread, h4.read_unread, h5.read_unread, h6.read_unread,
    View.ld_unit_zero (S := S256x4096) hz, View.ld_unit_zero (S := S1x4096) hz]

/-- The t·t row after the first point: the update of the zero row. -/
theorem sqRow1_first (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : cond0_0 i) (hc1 : ¬cond0_1 i)
    (x0 x1 : Vec F S256x4096 .f32) :
    sout0_A_2 c i a1 h1 a2 h2 a3 h3 a4 h4 a5 h5 a6 h6 hc0 hc1 x0 x1 = k0_pay7 x1 (k0_pay4 (F := F)) := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  rw [View.canon_cons_unit_zero (S := S1x4096) hz, View.readCov_unit_zero (S := S1x4096) _ hz]
  simp only [View.readAt_eq_ld, h1.read_unread, h2.read_unread, h4.read_unread, h5.read_unread, h6.read_unread,
    View.ld_unit_zero (S := S256x4096) hz, View.ld_unit_zero (S := S1x4096) hz]

/-! ## A middle point: update of the carried row -/

/-- The o·t row after a middle point: the update of the row carried in. -/
theorem dotRow_middle (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : ¬cond0_1 i)
    (x0 x1 : Vec F S256x4096 .f32) (s0 s1 s2 : Vec F S1x4096 .f32) :
    sout0_B_0 c i a1 h1 a2 h2 a3 h3 a4 h4 a5 h5 a6 h6 hc0 hc1 x0 x1 s0 s1 s2 = k0_pay5 x0 x1 s0 := by
  unfold sout0_B_0
  rw [View.read_writes_eq_canon _ _ _ (scover0_B_0 c i a1 h1 a2 h2 a3 h3 a4 h4 a5 h5 a6 h6 hc0 hc1 x0 x1 s0 s1 s2)]
  unfold kernelRun0_B
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz]

/-- The o·o row after a middle point: the update of the row carried in. -/
theorem sqRow0_middle (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : ¬cond0_1 i)
    (x0 x1 : Vec F S256x4096 .f32) (s0 s1 s2 : Vec F S1x4096 .f32) :
    sout0_B_1 c i a1 h1 a2 h2 a3 h3 a4 h4 a5 h5 a6 h6 hc0 hc1 x0 x1 s0 s1 s2 = k0_pay6 x0 s1 := by
  unfold sout0_B_1
  rw [View.read_writes_eq_canon _ _ _ (scover0_B_1 c i a1 h1 a2 h2 a3 h3 a4 h4 a5 h5 a6 h6 hc0 hc1 x0 x1 s0 s1 s2)]
  unfold kernelRun0_B
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz]

/-- The t·t row after a middle point: the update of the row carried in. -/
theorem sqRow1_middle (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : ¬cond0_1 i)
    (x0 x1 : Vec F S256x4096 .f32) (s0 s1 s2 : Vec F S1x4096 .f32) :
    sout0_B_2 c i a1 h1 a2 h2 a3 h3 a4 h4 a5 h5 a6 h6 hc0 hc1 x0 x1 s0 s1 s2 = k0_pay7 x1 s2 := by
  unfold sout0_B_2
  rw [View.read_writes_eq_canon _ _ _ (scover0_B_2 c i a1 h1 a2 h2 a3 h3 a4 h4 a5 h5 a6 h6 hc0 hc1 x0 x1 s0 s1 s2)]
  unfold kernelRun0_B
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz]

/-! ## The last point: update, then the loss into the result's buffer -/

/-- The o·t row after the last point: the update of the row carried in. -/
theorem dotRow_last (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : cond0_1 i)
    (x0 x1 : Vec F S256x4096 .f32) (s0 s1 s2 : Vec F S1x4096 .f32) :
    sout0_C_0 c i a1 h1 a2 h2 a3 h3 a4 h4 a5 h5 a6 h6 hc0 hc1 x0 x1 s0 s1 s2 = k0_pay5 x0 x1 s0 := by
  unfold sout0_C_0
  rw [View.read_writes_eq_canon _ _ _ (scover0_C_0 c i a1 h1 a2 h2 a3 h3 a4 h4 a5 h5 a6 h6 hc0 hc1 x0 x1 s0 s1 s2)]
  unfold kernelRun0_C
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz]

/-- The o·o row after the last point: the update of the row carried in. -/
theorem sqRow0_last (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : cond0_1 i)
    (x0 x1 : Vec F S256x4096 .f32) (s0 s1 s2 : Vec F S1x4096 .f32) :
    sout0_C_1 c i a1 h1 a2 h2 a3 h3 a4 h4 a5 h5 a6 h6 hc0 hc1 x0 x1 s0 s1 s2 = k0_pay6 x0 s1 := by
  unfold sout0_C_1
  rw [View.read_writes_eq_canon _ _ _ (scover0_C_1 c i a1 h1 a2 h2 a3 h3 a4 h4 a5 h5 a6 h6 hc0 hc1 x0 x1 s0 s1 s2)]
  unfold kernelRun0_C
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz]

/-- The t·t row after the last point: the update of the row carried in. -/
theorem sqRow1_last (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : cond0_1 i)
    (x0 x1 : Vec F S256x4096 .f32) (s0 s1 s2 : Vec F S1x4096 .f32) :
    sout0_C_2 c i a1 h1 a2 h2 a3 h3 a4 h4 a5 h5 a6 h6 hc0 hc1 x0 x1 s0 s1 s2 = k0_pay7 x1 s2 := by
  unfold sout0_C_2
  rw [View.read_writes_eq_canon _ _ _ (scover0_C_2 c i a1 h1 a2 h2 a3 h3 a4 h4 a5 h5 a6 h6 hc0 hc1 x0 x1 s0 s1 s2)]
  unfold kernelRun0_C
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz]

/-- The result's buffer after the last point: the loss expression of the three rows as that point updated them. -/
theorem loss_last (c : Dev nD) (i : grid0.Coords) (a1 : Memref sig .tc .vmem S256x4096 .f32) (h1 : a1.IsWhole) (a2 : Memref sig .tc .vmem S256x4096 .f32) (h2 : a2.IsWhole) (a3 : Memref sig .tc .vmem S1x1 .f32) (h3 : a3.IsWhole) (a4 : Memref sig .tc .vmem S1x4096 .f32) (h4 : a4.IsWhole) (a5 : Memref sig .tc .vmem S1x4096 .f32) (h5 : a5.IsWhole) (a6 : Memref sig .tc .vmem S1x4096 .f32) (h6 : a6.IsWhole) (hc0 : ¬cond0_0 i) (hc1 : cond0_1 i)
    (x0 x1 : Vec F S256x4096 .f32) (s0 s1 s2 : Vec F S1x4096 .f32) :
    out0_C_2 c i a1 h1 a2 h2 a3 h3 a4 h4 a5 h5 a6 h6 hc0 hc1 x0 x1 s0 s1 s2 = k0_pay1 (k0_pay6 x0 s1) (k0_pay7 x1 s2) (k0_pay5 x0 x1 s0) := by
  unfold out0_C_2
  rw [View.read_writes_eq_canon _ _ _ (cover0_C_2 c i a1 h1 a2 h2 a3 h3 a4 h4 a5 h5 a6 h6 hc0 hc1 x0 x1 s0 s1 s2)]
  unfold kernelRun0_C
  dsimp only
  sl_unfold_words
  rw [View.canon_unit_zero hz]
  simp only [View.readAt_eq_ld, h1.read_unread, h2.read_unread, h4.read_unread, h5.read_unread, h6.read_unread,
    View.ld_unit_zero (S := S256x4096) hz, View.ld_unit_zero (S := S1x4096) hz,
    View.readCov_unit_zero (S := S1x4096) _ hz]

end Cert.KernelIdeal.Pieces

end
-- ==== Proof.ColumnCosine.lean ====
/-
  Columnwise cosine-similarity loss of two [16384, 4096] arrays `o`, `t`, as one expression over the extended reals.

  For a column `q` let  dot q = ∑ r, o r q * t r q,  no q = ∑ r, o r q * o r q,  nt q = ∑ r, t r q * t r q  (sums over
  the 16384 rows). The cosine of column `q` is  dot q / (max (sqrt (no q)) ε * max (sqrt (nt q)) ε)  and the loss is
  1 - (∑ q, cos q) / 4096.

  The rows are cut into 64 blocks of 256: row `256 p + y` is row `y` of block `p`. A column sum over all rows is the
  sum over the blocks of the block's column sum (addition on the extended reals is commutative and associative, so no
  finiteness is needed), and the running sum after block `n` is the sum of the first `n + 1` block sums, which after the
  last block is the whole column sum.
-/
import Idealize.ShloMosaic.PureOps.Ideal
import Idealize.ShloMosaic.PureOps.Ideal.Laws
import Idealize.ShloMosaic.Lib.ValueIdx

noncomputable section

namespace Cert.ColumnCosine

open Idealize.ShloMosaic

/-- Row `y` of block `p`: row `256 p + y` of the 16384. -/
def rowOf (p : Fin 64) (y : Fin 256) : Fin 16384 :=
  ⟨256 * p.val + y.val, by have := p.isLt; have := y.isLt; omega⟩

/-- The pair (block, row in the block) of a row, as an equivalence: `(p, y) ↦ 256 p + y`. -/
def blockRow : Fin 64 × Fin 256 ≃ Fin 16384 :=
  finProdFinEquiv.trans (finCongr (by norm_num))

theorem blockRow_apply (p : Fin 64) (y : Fin 256) : blockRow (p, y) = rowOf p y := by
  apply Fin.ext
  simp [blockRow, rowOf, finProdFinEquiv]
  omega

/-- A sum over the 16384 rows is the sum over the 64 blocks of the sum over a block's 256 rows. -/
theorem sum_rows_eq_sum_blocks {M : Type*} [AddCommMonoid M] (f : Fin 16384 → M) :
    ∑ r : Fin 16384, f r = ∑ p : Fin 64, ∑ y : Fin 256, f (rowOf p y) := by
  rw [← Fintype.sum_prod_type' (f := fun p y => f (rowOf p y))]
  exact (Fintype.sum_equiv blockRow _ _ (fun x => by rw [← blockRow_apply])).symm

section Running

variable (g : Fin 16384 → Fin 4096 → EReal)

/-- Column `q`'s sum of the term `g` over the rows of block `p`; zero for a block number past the last. -/
def blockSum (p : ℕ) (q : Fin 4096) : EReal :=
  if h : p < 64 then ∑ y : Fin 256, g (rowOf ⟨p, h⟩ y) q else 0

/-- Column `q`'s running sum after block `n`: the block sums of blocks `0 … n`. -/
def runSum (n : ℕ) (q : Fin 4096) : EReal := ∑ p ∈ Finset.range (n + 1), blockSum g p q

theorem runSum_zero (q : Fin 4096) : runSum g 0 q = blockSum g 0 q := by
  unfold runSum; rw [Finset.sum_range_one]

theorem runSum_succ (n : ℕ) (q : Fin 4096) : runSum g (n + 1) q = runSum g n q + blockSum g (n + 1) q := by
  unfold runSum; rw [Finset.sum_range_succ]

/-- After the last block the running sum is the sum over all rows. -/
theorem runSum_last (q : Fin 4096) : runSum g 63 q = ∑ r : Fin 16384, g r q := by
  unfold runSum
  show ∑ p ∈ Finset.range 64, blockSum g p q = _
  rw [Finset.sum_range (fun p => blockSum g p q), sum_rows_eq_sum_blocks (fun r => g r q)]
  refine Finset.sum_congr rfl (fun p _ => ?_)
  unfold blockSum
  rw [dif_pos p.isLt]

/-- The same at a block number known to be the last. -/
theorem runSum_of_last (n : ℕ) (h : n = 63) (q : Fin 4096) : runSum g n q = ∑ r : Fin 16384, g r q := by
  subst h; exact runSum_last g q

end Running

/-- The cosine of one column from its three sums: `d / (max (sqrt a) ε * max (sqrt b) ε)`, with `ε` the f32 word
    nearest `1e-8`. -/
def cosAt (d a b : Fin 4096 → EReal) (q : Fin 4096) : EReal :=
  Ideal.div (d q)
    (max (Ideal.sqrt (a q)) (Ideal.ofBits .f32 0x322BCC77#32) * max (Ideal.sqrt (b q)) (Ideal.ofBits .f32 0x322BCC77#32))

/-- The loss from the three column sums: one minus the mean of the 4096 cosines. -/
def lossOf (d a b : Fin 4096 → EReal) : EReal :=
  Ideal.ofBits .f32 0x3F800000#32 - Ideal.div (∑ q : Fin 4096, cosAt d a b q) (Ideal.ofBits .f32 0x45800000#32)

/-- The loss of two arrays given by their entries at (row, column). -/
def loss (o t : Fin 16384 → Fin 4096 → EReal) : EReal :=
  lossOf (fun q => ∑ r : Fin 16384, o r q * t r q) (fun q => ∑ r : Fin 16384, o r q * o r q)
    (fun q => ∑ r : Fin 16384, t r q * t r q)

end Cert.ColumnCosine

end
-- ==== Proof.Stored.lean ====
/-
  The body's stored values read at an index, over the extended reals.

  A [256, 4096] block's sum over its rows, laid out as a [1, 4096] row, holds at lane `q` the sum over the 256 rows
  `y` of the block's entry `(y, q)`. Each of the three accumulated rows is the row carried in plus that sum, of the
  products o·t, o·o and t·t of the two input blocks; the rows stored at the first point are zero. The value stored
  into the [1, 1] result at the last point is the loss `lossOf` of the three accumulated rows.
-/
import proofs.«112263_j7035156431183_1_alg».proof.Proof.Gen.KernelIdeal.Skeleton
import proofs.«112263_j7035156431183_1_alg».proof.Proof.ColumnCosine
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stored

open Idealize.ShloMosaic Idealize.ShloMosaic.ValueIdx Cert.KernelIdeal Cert.KernelIdeal.Gen

/-- The sum over axis 0 of a [256, 4096] array, cast to [1, 4096], at lane `q`: the sum over the rows `y` of the
    entry `(y, q)`. -/
theorem rowSum_at (v : FVec Ideal S256x4096 .f32) (hφ : FKind.Formats .f32)
    (hacc : (0x00000000#32 : BitVec 32) = FKind.add.neutral .f32 hφ) (q : Fin 4096) :
    shapeCast S1x4096 (multiReduction .add [0] S4096 v 0x00000000#32 reduces_S256x4096_S4096 hφ hacc)
        shapeCasts_S4096_S1x4096 (ix2 (0 : Fin 1) q)
      = ∑ y : Fin 256, v (ix2 y q) := by
  refine (shapeCast_a_1a_apply _ shapeCasts_S4096_S1x4096 (0 : Fin 1) q).trans ?_
  refine (Ideal.multiReduction_add_single v 0x00000000#32 reduces_S256x4096_S4096 hφ hacc (ix1 q)).trans ?_
  exact Finset.sum_congr rfl fun y _ => congrArg v
    (funext fun a => Fin.ext (by match a with | ⟨0, _⟩ => rfl | ⟨1, _⟩ => rfl))

/-- The accumulated o·t row: the row carried in plus the block's column sums of the products. -/
theorem dotRow_at (x0 x1 : FVec Ideal S256x4096 .f32) (s : FVec Ideal S1x4096 .f32) (q : Fin 4096) :
    k0_pay5 (F := Ideal) x0 x1 s (ix2 (0 : Fin 1) q)
      = s (ix2 (0 : Fin 1) q) + ∑ y : Fin 256, x0 (ix2 y q) * x1 (ix2 y q) := by
  unfold k0_pay5
  dsimp only
  refine (congrFun (shapeCast_self _ _) _).trans ?_
  exact congrArg (s (ix2 (0 : Fin 1) q) + ·) (rowSum_at (mulf x0 x1) (.inl rfl) rfl q)

/-- The accumulated o·o row. -/
theorem sqRow0_at (x0 : FVec Ideal S256x4096 .f32) (s : FVec Ideal S1x4096 .f32) (q : Fin 4096) :
    k0_pay6 (F := Ideal) x0 s (ix2 (0 : Fin 1) q)
      = s (ix2 (0 : Fin 1) q) + ∑ y : Fin 256, x0 (ix2 y q) * x0 (ix2 y q) := by
  unfold k0_pay6
  dsimp only
  refine (congrFun (shapeCast_self _ _) _).trans ?_
  exact congrArg (s (ix2 (0 : Fin 1) q) + ·) (rowSum_at (mulf x0 x0) (.inl rfl) rfl q)

/-- The accumulated t·t row. -/
theorem sqRow1_at (x1 : FVec Ideal S256x4096 .f32) (s : FVec Ideal S1x4096 .f32) (q : Fin 4096) :
    k0_pay7 (F := Ideal) x1 s (ix2 (0 : Fin 1) q)
      = s (ix2 (0 : Fin 1) q) + ∑ y : Fin 256, x1 (ix2 y q) * x1 (ix2 y q) := by
  unfold k0_pay7
  dsimp only
  refine (congrFun (shapeCast_self _ _) _).trans ?_
  exact congrArg (s (ix2 (0 : Fin 1) q) + ·) (rowSum_at (mulf x1 x1) (.inl rfl) rfl q)

/-- The three rows stored at the first point are zero. -/
theorem zeroRow0_at (j : S1x4096.Idx) : (k0_pay2 (F := Ideal)) j = 0 := by
  unfold k0_pay2
  refine (congrFun (shapeCast_self _ _) _).trans ?_
  exact Ideal.ofBits_zero_f32
theorem zeroRow1_at (j : S1x4096.Idx) : (k0_pay3 (F := Ideal)) j = 0 := by
  unfold k0_pay3
  refine (congrFun (shapeCast_self _ _) _).trans ?_
  exact Ideal.ofBits_zero_f32
theorem zeroRow2_at (j : S1x4096.Idx) : (k0_pay4 (F := Ideal)) j = 0 := by
  unfold k0_pay4
  refine (congrFun (shapeCast_self _ _) _).trans ?_
  exact Ideal.ofBits_zero_f32

/-- The sum over axis 1 of a [1, 4096] row, cast to [1, 1], at its one entry: the sum over the lanes. -/
theorem laneSum_at (v : FVec Ideal S1x4096 .f32) (hφ : FKind.Formats .f32)
    (hacc : (0x00000000#32 : BitVec 32) = FKind.add.neutral .f32 hφ) :
    shapeCast S1x1 (multiReduction .add [1] S1 v 0x00000000#32 reduces_S1x4096_S1 hφ hacc)
        shapeCasts_S1_S1x1 (ix2 (0 : Fin 1) (0 : Fin 1))
      = ∑ q : Fin 4096, v (ix2 (0 : Fin 1) q) := by
  refine (shapeCast_a_1a_apply _ shapeCasts_S1_S1x1 (0 : Fin 1) (0 : Fin 1)).trans ?_
  refine (Ideal.multiReduction_add_single v 0x00000000#32 reduces_S1x4096_S1 hφ hacc (ix1 (0 : Fin 1))).trans ?_
  exact Finset.sum_congr rfl fun q _ => congrArg v
    (funext fun a => Fin.ext (by match a with | ⟨0, _⟩ => rfl | ⟨1, _⟩ => rfl))

/-- The value stored into the result at the last point: the loss of the three accumulated rows (`a` the o·o row,
    `b` the t·t row, `d` the o·t row). -/
theorem lossEntry_at (a b d : FVec Ideal S1x4096 .f32) :
    k0_pay1 (F := Ideal) a b d (ix2 (0 : Fin 1) (0 : Fin 1))
      = Cert.ColumnCosine.lossOf (fun q => d (ix2 (0 : Fin 1) q)) (fun q => a (ix2 (0 : Fin 1) q))
          (fun q => b (ix2 (0 : Fin 1) q)) := by
  unfold k0_pay1
  dsimp only
  unfold Cert.ColumnCosine.lossOf
  refine congrArg (fun z => Ideal.ofBits .f32 0x3F800000#32 - Ideal.div z (Ideal.ofBits .f32 0x45800000#32)) ?_
  exact laneSum_at _ (.inl rfl) rfl

end Cert.KernelIdeal.Stored

end
-- ==== Proof.Accumulated.lean ====
/-
  The three accumulator rows after each grid point, and the result's entry after the last.

  Point `t` reads rows `256 t … 256 t + 255` of both arrays: entry `(y, q)` of its block of an array is the array's
  entry `(256 t + y, q)`. So the update a point makes to a row adds, at lane `q`, the block sum of the row's product
  over block `t`. By induction over the points the o·t, o·o and t·t rows after point `n` hold at lane `q` the running
  sums of those products over blocks `0 … n`; after point 63 these are the whole column sums, and the value the last
  point stores into the result's one entry is the loss of the two arrays.
-/
import proofs.«112263_j7035156431183_1_alg».proof.Proof.Pieces
import proofs.«112263_j7035156431183_1_alg».proof.Proof.Stored
import Idealize.ShloMosaic.Lib.Pipeline.Value
import Idealize.ShloMosaic.Lib.ValueIdx

set_option maxRecDepth 16384

noncomputable section

namespace Cert.KernelIdeal.Accumulated

open Idealize.ShloMosaic Idealize.ShloMosaic.TcCoe Idealize.SL.Sem Idealize.ShloMosaic.ValueIdx
open Cert.KernelIdeal Cert.KernelIdeal.Gen Cert.ColumnCosine

variable (m : (ℓ : Loc nD τ sig) → Buf (Elt Ideal) ℓ)

/-- The two argument arrays as the region finds them. -/
abbrev oArr (c : Dev nD) : FVec Ideal S16384x4096 .f32 := V m c main_arg0
abbrev tArr (c : Dev nD) : FVec Ideal S16384x4096 .f32 := V m c main_arg1
/-- Their blocks at a grid point. -/
abbrev oBlk (c : Dev nD) (t : Fin cfg0.N) : FVec Ideal S256x4096 .f32 := iblk m c 0 t
abbrev tBlk (c : Dev nD) (t : Fin cfg0.N) : FVec Ideal S256x4096 .f32 := iblk m c 1 t

/-- The three products at (row, column). -/
abbrev ot (c : Dev nD) : Fin 16384 → Fin 4096 → EReal := fun r q => oArr m c (ix2 r q) * tArr m c (ix2 r q)
abbrev oo (c : Dev nD) : Fin 16384 → Fin 4096 → EReal := fun r q => oArr m c (ix2 r q) * oArr m c (ix2 r q)
abbrev tt (c : Dev nD) : Fin 16384 → Fin 4096 → EReal := fun r q => tArr m c (ix2 r q) * tArr m c (ix2 r q)

/-- Both input windows' block index at point `t` is `(t, 0)`. -/
theorem blockIndex : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `(y, q)` of point `t`'s block of the first array is the array's entry `(256 t + y, q)`. -/
theorem oBlk_at (c : Dev nD) (t : Fin cfg0.N) (h : t.val < 64) (y : Fin 256) (q : Fin 4096) :
    oBlk m c t (ix2 y q) = oArr m c (ix2 (rowOf ⟨t.val, h⟩ y) q) := by
  show iblk m c 0 t (ix2 y q) = V m c main_arg0 _
  unfold iblk
  rw [View.read_apply]
  show V m c main_arg0 _ = V m c main_arg0 _
  congr 1
  funext a
  apply Fin.ext
  match a with
  | ⟨0, _⟩ => show win0_0.index t 0 * 256 + 1 * y.val = 256 * t.val + y.val; rw [(blockIndex t).1]; omega
  | ⟨1, _⟩ => show win0_0.index t 1 * 4096 + 1 * q.val = q.val; rw [(blockIndex t).2.1]; omega

/-- The same for the second array. -/
theorem tBlk_at (c : Dev nD) (t : Fin cfg0.N) (h : t.val < 64) (y : Fin 256) (q : Fin 4096) :
    tBlk m c t (ix2 y q) = tArr m c (ix2 (rowOf ⟨t.val, h⟩ y) q) := by
  show iblk m c 1 t (ix2 y q) = V m c main_arg1 _
  unfold iblk
  rw [View.read_apply]
  show V m c main_arg1 _ = V m c main_arg1 _
  congr 1
  funext a
  apply Fin.ext
  match a with
  | ⟨0, _⟩ => show win0_1.index t 0 * 256 + 1 * y.val = 256 * t.val + y.val; rw [(blockIndex t).2.2.1]; omega
  | ⟨1, _⟩ => show win0_1.index t 1 * 4096 + 1 * q.val = q.val; rw [(blockIndex t).2.2.2]; omega

/-- The o·t products summed over point `t`'s block, at lane `q`: block `t`'s block sum. -/
theorem blockSum_ot (c : Dev nD) (t : Fin cfg0.N) (q : Fin 4096) :
    ∑ y : Fin 256, oBlk m c t (ix2 y q) * tBlk m c t (ix2 y q) = blockSum (ot m c) t.val q := by
  have h : t.val < 64 := lt_of_lt_of_eq t.isLt (show cfg0.N = 64 from N_0)
  unfold blockSum
  rw [dif_pos h]
  exact Finset.sum_congr rfl fun y _ => by rw [oBlk_at m c t h, tBlk_at m c t h]

/-- The o·o products summed over point `t`'s block, at lane `q`: block `t`'s block sum. -/
theorem blockSum_oo (c : Dev nD) (t : Fin cfg0.N) (q : Fin 4096) :
    ∑ y : Fin 256, oBlk m c t (ix2 y q) * oBlk m c t (ix2 y q) = blockSum (oo m c) t.val q := by
  have h : t.val < 64 := lt_of_lt_of_eq t.isLt (show cfg0.N = 64 from N_0)
  unfold blockSum
  rw [dif_pos h]
  exact Finset.sum_congr rfl fun y _ => by rw [oBlk_at m c t h]

/-- The t·t products summed over point `t`'s block, at lane `q`: block `t`'s block sum. -/
theorem blockSum_tt (c : Dev nD) (t : Fin cfg0.N) (q : Fin 4096) :
    ∑ y : Fin 256, tBlk m c t (ix2 y q) * tBlk m c t (ix2 y q) = blockSum (tt m c) t.val q := by
  have h : t.val < 64 := lt_of_lt_of_eq t.isLt (show cfg0.N = 64 from N_0)
  unfold blockSum
  rw [dif_pos h]
  exact Finset.sum_congr rfl fun y _ => by rw [tBlk_at m c t h]

/-- The o·t row after the first point, at lane `q`: the first block's block sum. -/
theorem ot_first (c : Dev nD) (t : Fin cfg0.N) (hc0 : cond0_0 (grid0.coords t)) (hc1 : ¬cond0_1 (grid0.coords t))
    (q : Fin 4096) :
    sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (ix2 (0 : Fin 1) q) = blockSum (ot m c) t.val q := by
  refine (congrFun (Pieces.dotRow_first (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t)) (ix2 (0 : Fin 1) q)).trans ?_
  refine (Stored.dotRow_at (oBlk m c t) (tBlk m c t) (k0_pay2 (F := Ideal)) q).trans ?_
  rw [Stored.zeroRow0_at, zero_add]
  exact blockSum_ot m c t q

/-- The o·t row after a middle point, at lane `q`: the row carried in plus the point's block sum. -/
theorem ot_middle (c : Dev nD) (t : Fin cfg0.N) (hc0 : ¬cond0_0 (grid0.coords t)) (hc1 : ¬cond0_1 (grid0.coords t))
    (s0 s1 s2 : FVec Ideal S1x4096 .f32) (q : Fin 4096) :
    sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) s0 s1 s2 (ix2 (0 : Fin 1) q)
      = s0 (ix2 (0 : Fin 1) q) + blockSum (ot m c) t.val q := by
  refine (congrFun (Pieces.dotRow_middle (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t) s0 s1 s2) (ix2 (0 : Fin 1) q)).trans ?_
  refine (Stored.dotRow_at (oBlk m c t) (tBlk m c t) s0 q).trans ?_
  exact congrArg (s0 (ix2 (0 : Fin 1) q) + ·) (blockSum_ot m c t q)

/-- The o·t row after a the last point, at lane `q`: the row carried in plus the point's block sum. -/
theorem ot_last (c : Dev nD) (t : Fin cfg0.N) (hc0 : ¬cond0_0 (grid0.coords t)) (hc1 : cond0_1 (grid0.coords t))
    (s0 s1 s2 : FVec Ideal S1x4096 .f32) (q : Fin 4096) :
    sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) s0 s1 s2 (ix2 (0 : Fin 1) q)
      = s0 (ix2 (0 : Fin 1) q) + blockSum (ot m c) t.val q := by
  refine (congrFun (Pieces.dotRow_last (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t) s0 s1 s2) (ix2 (0 : Fin 1) q)).trans ?_
  refine (Stored.dotRow_at (oBlk m c t) (tBlk m c t) s0 q).trans ?_
  exact congrArg (s0 (ix2 (0 : Fin 1) q) + ·) (blockSum_ot m c t q)

/-- The o·o row after the first point, at lane `q`: the first block's block sum. -/
theorem oo_first (c : Dev nD) (t : Fin cfg0.N) (hc0 : cond0_0 (grid0.coords t)) (hc1 : ¬cond0_1 (grid0.coords t))
    (q : Fin 4096) :
    sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (ix2 (0 : Fin 1) q) = blockSum (oo m c) t.val q := by
  refine (congrFun (Pieces.sqRow0_first (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t)) (ix2 (0 : Fin 1) q)).trans ?_
  refine (Stored.sqRow0_at (oBlk m c t) (k0_pay3 (F := Ideal)) q).trans ?_
  rw [Stored.zeroRow1_at, zero_add]
  exact blockSum_oo m c t q

/-- The o·o row after a middle point, at lane `q`: the row carried in plus the point's block sum. -/
theorem oo_middle (c : Dev nD) (t : Fin cfg0.N) (hc0 : ¬cond0_0 (grid0.coords t)) (hc1 : ¬cond0_1 (grid0.coords t))
    (s0 s1 s2 : FVec Ideal S1x4096 .f32) (q : Fin 4096) :
    sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) s0 s1 s2 (ix2 (0 : Fin 1) q)
      = s1 (ix2 (0 : Fin 1) q) + blockSum (oo m c) t.val q := by
  refine (congrFun (Pieces.sqRow0_middle (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t) s0 s1 s2) (ix2 (0 : Fin 1) q)).trans ?_
  refine (Stored.sqRow0_at (oBlk m c t) s1 q).trans ?_
  exact congrArg (s1 (ix2 (0 : Fin 1) q) + ·) (blockSum_oo m c t q)

/-- The o·o row after a the last point, at lane `q`: the row carried in plus the point's block sum. -/
theorem oo_last (c : Dev nD) (t : Fin cfg0.N) (hc0 : ¬cond0_0 (grid0.coords t)) (hc1 : cond0_1 (grid0.coords t))
    (s0 s1 s2 : FVec Ideal S1x4096 .f32) (q : Fin 4096) :
    sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) s0 s1 s2 (ix2 (0 : Fin 1) q)
      = s1 (ix2 (0 : Fin 1) q) + blockSum (oo m c) t.val q := by
  refine (congrFun (Pieces.sqRow0_last (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t) s0 s1 s2) (ix2 (0 : Fin 1) q)).trans ?_
  refine (Stored.sqRow0_at (oBlk m c t) s1 q).trans ?_
  exact congrArg (s1 (ix2 (0 : Fin 1) q) + ·) (blockSum_oo m c t q)

/-- The t·t row after the first point, at lane `q`: the first block's block sum. -/
theorem tt_first (c : Dev nD) (t : Fin cfg0.N) (hc0 : cond0_0 (grid0.coords t)) (hc1 : ¬cond0_1 (grid0.coords t))
    (q : Fin 4096) :
    sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (ix2 (0 : Fin 1) q) = blockSum (tt m c) t.val q := by
  refine (congrFun (Pieces.sqRow1_first (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t)) (ix2 (0 : Fin 1) q)).trans ?_
  refine (Stored.sqRow1_at (tBlk m c t) (k0_pay4 (F := Ideal)) q).trans ?_
  rw [Stored.zeroRow2_at, zero_add]
  exact blockSum_tt m c t q

/-- The t·t row after a middle point, at lane `q`: the row carried in plus the point's block sum. -/
theorem tt_middle (c : Dev nD) (t : Fin cfg0.N) (hc0 : ¬cond0_0 (grid0.coords t)) (hc1 : ¬cond0_1 (grid0.coords t))
    (s0 s1 s2 : FVec Ideal S1x4096 .f32) (q : Fin 4096) :
    sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) s0 s1 s2 (ix2 (0 : Fin 1) q)
      = s2 (ix2 (0 : Fin 1) q) + blockSum (tt m c) t.val q := by
  refine (congrFun (Pieces.sqRow1_middle (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t) s0 s1 s2) (ix2 (0 : Fin 1) q)).trans ?_
  refine (Stored.sqRow1_at (tBlk m c t) s2 q).trans ?_
  exact congrArg (s2 (ix2 (0 : Fin 1) q) + ·) (blockSum_tt m c t q)

/-- The t·t row after a the last point, at lane `q`: the row carried in plus the point's block sum. -/
theorem tt_last (c : Dev nD) (t : Fin cfg0.N) (hc0 : ¬cond0_0 (grid0.coords t)) (hc1 : cond0_1 (grid0.coords t))
    (s0 s1 s2 : FVec Ideal S1x4096 .f32) (q : Fin 4096) :
    sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) s0 s1 s2 (ix2 (0 : Fin 1) q)
      = s2 (ix2 (0 : Fin 1) q) + blockSum (tt m c) t.val q := by
  refine (congrFun (Pieces.sqRow1_last (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (oBlk m c t) (tBlk m c t) s0 s1 s2) (ix2 (0 : Fin 1) q)).trans ?_
  refine (Stored.sqRow1_at (tBlk m c t) s2 q).trans ?_
  exact congrArg (s2 (ix2 (0 : Fin 1) q) + ·) (blockSum_tt m c t q)

/-- The three rows after point `n` hold, at lane `q`, the running sums of the three products over blocks `0 … n`. -/
theorem rows_eq (c : Dev nD) : ∀ (n : ℕ) (hn : n < cfg0.N) (q : Fin 4096),
    (outsAt0 m c n hn).2.1 (ix2 (0 : Fin 1) q) = runSum (ot m c) n q
    ∧ (outsAt0 m c n hn).2.2.1 (ix2 (0 : Fin 1) q) = runSum (oo m c) n q
    ∧ (outsAt0 m c n hn).2.2.2 (ix2 (0 : Fin 1) q) = runSum (tt m c) n q
  | 0, hn, q => by
    rw [outsAt0_A m c ⟨0, hn⟩ rfl (by show ¬(0 : ℕ) % 64 = 63; decide)]
    dsimp only
    exact ⟨(ot_first m c ⟨0, hn⟩ _ _ q).trans (runSum_zero (ot m c) q).symm,
      (oo_first m c ⟨0, hn⟩ _ _ q).trans (runSum_zero (oo m c) q).symm,
      (tt_first m c ⟨0, hn⟩ _ _ q).trans (runSum_zero (tt m c) q).symm⟩
  | n + 1, hn, q => by
    have hN : cfg0.N = 64 := N_0
    have h0 : ¬(⟨n + 1, hn⟩ : Fin cfg0.N).val % 64 = 0 := by dsimp only; omega
    obtain ⟨i0, i1, i2⟩ := rows_eq c n (Nat.lt_of_succ_lt hn) q
    by_cases h1 : (⟨n + 1, hn⟩ : Fin cfg0.N).val % 64 = 63
    · rw [outsAt0_C m c ⟨n + 1, hn⟩ h0 h1]
      dsimp only
      exact ⟨(ot_last m c ⟨n + 1, hn⟩ _ _ _ _ _ q).trans ((congrArg (· + _) i0).trans (runSum_succ (ot m c) n q).symm),
        (oo_last m c ⟨n + 1, hn⟩ _ _ _ _ _ q).trans ((congrArg (· + _) i1).trans (runSum_succ (oo m c) n q).symm),
        (tt_last m c ⟨n + 1, hn⟩ _ _ _ _ _ q).trans ((congrArg (· + _) i2).trans (runSum_succ (tt m c) n q).symm)⟩
    · rw [outsAt0_B m c ⟨n + 1, hn⟩ h0 h1]
      dsimp only
      exact ⟨(ot_middle m c ⟨n + 1, hn⟩ _ _ _ _ _ q).trans ((congrArg (· + _) i0).trans (runSum_succ (ot m c) n q).symm),
        (oo_middle m c ⟨n + 1, hn⟩ _ _ _ _ _ q).trans ((congrArg (· + _) i1).trans (runSum_succ (oo m c) n q).symm),
        (tt_middle m c ⟨n + 1, hn⟩ _ _ _ _ _ q).trans ((congrArg (· + _) i2).trans (runSum_succ (tt m c) n q).symm)⟩

/-- The loss of the two argument arrays. -/
abbrev lossVal (c : Dev nD) : EReal := loss (fun r q => oArr m c (ix2 r q)) (fun r q => tArr m c (ix2 r q))

/-- The value the last point stores into the result's one entry is the loss: each of the three rows it has just
    updated is the row the point before left plus the last block's block sum, which is the whole column sum. The last
    point is kept symbolic (`n + 1` with `(n + 1) % 64 = 63`). -/
theorem lossEntry (c : Dev nD) (n : ℕ) (hn : n + 1 < cfg0.N) (h1 : (n + 1) % 64 = 63) :
    (outsAt0 m c (n + 1) hn).1 (ix2 (0 : Fin 1) (0 : Fin 1)) = lossVal m c := by
  have hN : cfg0.N = 64 := N_0
  have h0 : ¬(⟨n + 1, hn⟩ : Fin cfg0.N).val % 64 = 0 := by dsimp only; omega
  have h1' : (⟨n + 1, hn⟩ : Fin cfg0.N).val % 64 = 63 := h1
  have hp : n < cfg0.N := Nat.lt_of_succ_lt hn
  have hl : n + 1 = 63 := by omega
  rw [outsAt0_C m c ⟨n + 1, hn⟩ h0 h1']
  dsimp only
  refine (congrFun (Pieces.loss_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) _ _ (oBlk m c ⟨n + 1, hn⟩) (tBlk m c ⟨n + 1, hn⟩)
    (outsAt0 m c n hp).2.1 (outsAt0 m c n hp).2.2.1 (outsAt0 m c n hp).2.2.2) (ix2 (0 : Fin 1) (0 : Fin 1))).trans ?_
  refine (Stored.lossEntry_at _ _ _).trans ?_
  unfold lossVal loss
  refine congr (congr (congrArg lossOf (funext fun q => ?_)) (funext fun q => ?_)) (funext fun q => ?_)
  · refine (Stored.dotRow_at (oBlk m c ⟨n + 1, hn⟩) (tBlk m c ⟨n + 1, hn⟩) (outsAt0 m c n hp).2.1 q).trans ?_
    exact (congrArg₂ (· + ·) (rows_eq m c n hp q).1 (blockSum_ot m c ⟨n + 1, hn⟩ q)).trans
      ((runSum_succ (ot m c) n q).symm.trans (runSum_of_last (ot m c) (n + 1) hl q))
  · refine (Stored.sqRow0_at (oBlk m c ⟨n + 1, hn⟩) (outsAt0 m c n hp).2.2.1 q).trans ?_
    exact (congrArg₂ (· + ·) (rows_eq m c n hp q).2.1 (blockSum_oo m c ⟨n + 1, hn⟩ q)).trans
      ((runSum_succ (oo m c) n q).symm.trans (runSum_of_last (oo m c) (n + 1) hl q))
  · refine (Stored.sqRow1_at (tBlk m c ⟨n + 1, hn⟩) (outsAt0 m c n hp).2.2.2 q).trans ?_
    exact (congrArg₂ (· + ·) (rows_eq m c n hp q).2.2 (blockSum_tt m c ⟨n + 1, hn⟩ q)).trans
      ((runSum_succ (tt m c) n q).symm.trans (runSum_of_last (tt m c) (n + 1) hl q))

end Cert.KernelIdeal.Accumulated

end
-- ==== Proof.Result.lean ====
/-
  The kernel's run, read: the result is the columnwise cosine loss of the two arguments.

  The result's [1, 1] array has one block, at block index (0, 0), written back once, after the last grid point; what
  is written is the loss (the entry the last point stored), so the array ends holding the loss at its one entry. The
  line after the region reshapes that array to a scalar, which holds the same value. The two argument arrays are
  inputs of the region and end as they began.
-/
import proofs.«112263_j7035156431183_1_alg».proof.Proof.Accumulated
import Idealize.ShloMosaic.Lib.Pipeline.Value
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accumulated

variable (m : (ℓ : Loc nD τ sig) → Buf (Elt Ideal) ℓ) (ρ : Dev nD → PrngReg)

/-- The result's [1, 1] array holding the loss at its one entry. -/
abbrev lossArr (c : Dev nD) : Buf (Elt Ideal) ((c : Thread nD τ).loc main_v0) := fun _ => lossVal m c

theorem last_lt : 63 < cfg0.N := by rw [show cfg0.N = 64 from N_0]; decide

/-- The [1, 1] array has one index. -/
theorem idx_eq (j : S1x1.Idx) : j = ix2 (0 : Fin 1) (0 : Fin 1) := by
  funext a
  apply Fin.ext
  match a with
  | ⟨0, _⟩ => show (j 0).val = 0; have h : (j 0).val < 1 := (j 0).isLt; omega
  | ⟨1, _⟩ => show (j 1).val = 0; have h : (j 1).val < 1 := (j 1).isLt; omega

/-- What a point `t` with `t % 64 = 63` (the last) leaves in the result's buffer is the loss, at the buffer's one entry. -/
theorem out_last (c : Dev nD) (t : Fin cfg0.N) (h : t.val % 64 = 63) : (outsAt0 m c t.val t.isLt).1 = lossArr m c := by
  funext j
  rw [idx_eq j]
  obtain ⟨k, hk⟩ := t
  cases k with
  | zero => exact absurd h (by show ¬(0 : ℕ) % 64 = 63; decide)
  | succ n => exact lossEntry m c n hk h

/-- The result window's block index is (0, 0) at every point. -/
theorem resIndex : ∀ t : Fin cfg0.N, win0_2.index t (0 : Fin 2) = 0 ∧ win0_2.index t (1 : Fin 2) = 0 :=
  (by decide +kernel : ∀ t : Fin grid0.N, _)

/-- The one write-back, after the last point, writes the loss: the block read off the constant array. -/
theorem flushed_eq (c : Dev nD) (t : Fin cfg0.N) (hf : (cfg0.win 2).flush t = true) :
    (dats m 0 c).flushed 2 t = ((cfg0.win 2).blk t).view.read (Elt Ideal) (lossArr m c) := by
  show (cfg0.win 2).cut (grid0.coords t) ((dats m 0 c).after 2 t) = _
  rw [after0_2, out_last m c t ((flush0_2 t).mp hf)]
  funext j
  rw [View.read_apply]
  exact (cast_eq _ _).symm

/-- An index of the result's array is in point `t`'s block iff each coordinate is in the block's range on its axis. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The result's array after the run holds the loss: the last point's block covers it. -/
theorem final (c : Dev nD) : (dats m 0 c).arrAt 2 cfg0.N = lossArr m c :=
  (dats m 0 c).arrAt_eq_of_cover 2 (lossArr m c) (flushed_eq m c) fun i =>
    ⟨⟨63, last_lt⟩, (flush0_2 ⟨63, last_lt⟩).mpr rfl, by
      rw [mem_blk]
      obtain ⟨e0, e1⟩ := resIndex ⟨63, last_lt⟩
      have h0 := idx2_lt0 i
      have h1 := idx2_lt1 i
      intro a
      match a with
      | ⟨0, _⟩ => show win0_2.index ⟨63, last_lt⟩ (0 : Fin 2) * 1 ≤ (i 0).val ∧ (i 0).val < win0_2.index ⟨63, last_lt⟩ (0 : Fin 2) * 1 + 1; omega
      | ⟨1, _⟩ => show win0_2.index ⟨63, last_lt⟩ (1 : Fin 2) * 1 ≤ (i 1).val ∧ (i 1).val < win0_2.index ⟨63, last_lt⟩ (1 : Fin 2) * 1 + 1; omega⟩

/-- The scalar the line after the region leaves: the reshape of the result's array, the loss. -/
theorem tail_eq (c : Dev nD) :
    Pipeline.afterTail₀ cfgs (dats m) 0 (V0 m) [hostOps1] c main_v1 = fun _ => lossVal m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = lossArr m c :=
    (Pipeline.withArrays_arr spec0 launch0.win.arr_inj c _ _ 2).trans (final m c)
  rw [e]
  rfl

/-- The kernel's run, read: the scalar result at the loss of the two arguments, the arguments unchanged. -/
theorem run : θ_run defs (onTc (τ := τ) (main (F := Ideal))) ⟨m, fun _ => 0, ρ⟩ fun r => ∀ c : Dev nD,
      r.2.mem ((c.tc : Thread nD τ).loc main_v1) = (fun _ => lossVal m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference's result is the columnwise cosine loss of its two arguments.

  Its three column sums are `0 + ∑ r` of the products o·t, o·o, t·t at `(r, q)`; its cosine of column `q` divides the
  first by the product of the two square roots, each raised to at least ε; its lane sum is `0 + ∑` over the 4096
  columns; and the result is `1 - sum / 4096`. The leading zeros are the extended real `0`.
-/
import proofs.«112263_j7035156431183_1_alg».proof.Proof.Gen.ReferenceIdeal.Read
import proofs.«112263_j7035156431183_1_alg».proof.Proof.ColumnCosine
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- A lane index of the [4096] row is its one coordinate. -/
def laneEquiv : S4096.Idx ≃ Fin 4096 where
  toFun j := j 0
  invFun q := ix1 q
  left_inv j := (eq_ix1 j).symm
  right_inv _ := rfl

/-- The entry a column sum reads at row `k` of column `q`. -/
theorem rowIdx (q : Fin 4096) (k : Fin 16384) : idx_main_v1 (ix1 q) k = ix2 k q :=
  funext fun a => by match a with | ⟨0, _⟩ => rfl | ⟨1, _⟩ => rfl

/-- The o·t column sum. -/
theorem dot_at (x0 x1 : FVec Ideal S16384x4096 .f32) (q : Fin 4096) :
    val_main_v1 (F := Ideal) x0 x1 (ix1 q) = ∑ r : Fin 16384, x0 (ix2 r q) * x1 (ix2 r q) := by
  rw [val_main_v1_apply]
  refine (congrArg (· + _) Ideal.ofBits_zero_f32).trans ((zero_add _).trans ?_)
  exact Finset.sum_congr rfl fun r _ => by rw [rowIdx]; rfl

/-- The o·o column sum. -/
theorem sq0_at (x0 : FVec Ideal S16384x4096 .f32) (q : Fin 4096) :
    val_main_v3 (F := Ideal) x0 (ix1 q) = ∑ r : Fin 16384, x0 (ix2 r q) * x0 (ix2 r q) := by
  rw [val_main_v3_apply]
  refine (congrArg (· + _) Ideal.ofBits_zero_f32).trans ((zero_add _).trans ?_)
  exact Finset.sum_congr rfl fun r _ => by rw [show idx_main_v3 (ix1 q) r = ix2 r q from rowIdx q r]; rfl

/-- The t·t column sum. -/
theorem sq1_at (x1 : FVec Ideal S16384x4096 .f32) (q : Fin 4096) :
    val_main_v6 (F := Ideal) x1 (ix1 q) = ∑ r : Fin 16384, x1 (ix2 r q) * x1 (ix2 r q) := by
  rw [val_main_v6_apply]
  refine (congrArg (· + _) Ideal.ofBits_zero_f32).trans ((zero_add _).trans ?_)
  exact Finset.sum_congr rfl fun r _ => by rw [show idx_main_v6 (ix1 q) r = ix2 r q from rowIdx q r]; rfl

/-- The cosine of column `q`. -/
theorem cos_at (x0 x1 : FVec Ideal S16384x4096 .f32) (q : Fin 4096) :
    val_main_v13 (F := Ideal) x0 x1 (ix1 q)
      = Cert.ColumnCosine.cosAt (fun q => ∑ r : Fin 16384, x0 (ix2 r q) * x1 (ix2 r q))
          (fun q => ∑ r : Fin 16384, x0 (ix2 r q) * x0 (ix2 r q))
          (fun q => ∑ r : Fin 16384, x1 (ix2 r q) * x1 (ix2 r q)) q := by
  rw [val_main_v13_apply, val_main_v12_apply, val_main_v9_apply, val_main_v11_apply, val_main_v4_apply,
    val_main_v7_apply, val_main_v8_apply, val_main_v10_apply, val_main_cst_2_apply, val_main_cst_3_apply,
    dot_at, sq0_at, sq1_at]
  unfold Cert.ColumnCosine.cosAt
  simp only [Ideal.hostDivf_def, Ideal.mulf_def, Ideal.maximumf_def, Ideal.hostUnary_sqrt_def, Ideal.ofBits_def]

/-- The reference's result, at its one index, is the loss of the two arguments read at (row, column). -/
theorem result_eq (x0 x1 : FVec Ideal S16384x4096 .f32) (i : S_.Idx) :
    val_main_v16 (F := Ideal) x0 x1 i
      = Cert.ColumnCosine.loss (fun r q => x0 (ix2 r q)) (fun r q => x1 (ix2 r q)) := by
  rw [val_main_v16_apply, val_main_v15_apply, val_main_v14_apply]
  unfold Cert.ColumnCosine.loss Cert.ColumnCosine.lossOf
  refine congrArg (fun z => Ideal.ofBits .f32 0x3F800000#32 - Ideal.div z (Ideal.ofBits .f32 0x45800000#32)) ?_
  refine (congrArg (· + _) Ideal.ofBits_zero_f32).trans ((zero_add _).trans ?_)
  refine Fintype.sum_equiv laneEquiv _ _ (fun j => ?_)
  obtain ⟨q, rfl⟩ : ∃ q : Fin 4096, j = ix1 q := ⟨j 0, eq_ix1 j⟩
  exact cos_at x0 x1 q

end Cert.ReferenceIdeal.RefValue

end
-- ==== Proof.lean ====
/-
  Columnwise cosine-similarity loss: the kernel against its reference, over the extended reals.

  Both programs take two [16384, 4096] arrays o, t and return  1 - (∑ q, cos q) / 4096  with
  cos q = dot q / (max (sqrt (no q)) ε * max (sqrt (nt q)) ε)  and  dot, no, nt  the column sums over the 16384 rows of
  o·t, o·o, t·t. The reference sums each column at once. The kernel walks 64 blocks of 256 rows, keeping three
  [1, 4096] rows of running column sums (zeroed at the first block), and at the last block computes the loss from them
  into a [1, 1] array that a reshape turns into the scalar result. A column sum over all rows is the sum over the
  blocks of the block sums (addition of extended reals is commutative and associative; no finiteness is used), so the
  rows after the last block are the reference's column sums, and from there the two programs apply the same
  operations to the same values: square root, maximum with the same ε, product, quotient, lane sum, quotient by
  the same 4096, difference from the same 1.

  The kernel's and its idealization's frames are the generated ones; the reference's frame is its generated run with
  the result dropped; the idealization rewrote nothing, so `preserves` is `True`.
-/
import proofs.«112263_j7035156431183_1_alg».proof.Defs
import proofs.«112263_j7035156431183_1_alg».proof.Proof.Gen.Kernel
import proofs.«112263_j7035156431183_1_alg».proof.Proof.Gen.Kernel.Skeleton
import proofs.«112263_j7035156431183_1_alg».proof.Proof.Gen.Kernel.Launch
import proofs.«112263_j7035156431183_1_alg».proof.Proof.Gen.Kernel.Points
import proofs.«112263_j7035156431183_1_alg».proof.Proof.Gen.Kernel.Frame
import proofs.«112263_j7035156431183_1_alg».proof.Proof.Gen.KernelIdeal
import proofs.«112263_j7035156431183_1_alg».proof.Proof.Gen.KernelIdeal.Skeleton
import proofs.«112263_j7035156431183_1_alg».proof.Proof.Gen.KernelIdeal.Launch
import proofs.«112263_j7035156431183_1_alg».proof.Proof.Gen.KernelIdeal.Points
import proofs.«112263_j7035156431183_1_alg».proof.Proof.Gen.KernelIdeal.Frame
import proofs.«112263_j7035156431183_1_alg».proof.Proof.Gen.ReferenceIdeal
import proofs.«112263_j7035156431183_1_alg».proof.Proof.Gen.ReferenceIdeal.Read
import proofs.«112263_j7035156431183_1_alg».proof.Proof.Gen.Pre_finite_inputs
import proofs.«112263_j7035156431183_1_alg».proof.Proof.Result
import proofs.«112263_j7035156431183_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's scalar ends at the loss of its arguments (the blockwise running sums
    are the column sums) and the reference's at the loss of its own: the same value. -/
theorem algebraic : Cert.algebraic_KernelIdeal_ReferenceIdeal := by
  intro m ρ m' ρ' _ hagree
  refine ⟨fun c => fun _ => Cert.KernelIdeal.Accumulated.lossVal m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  funext i
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
